-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x256 : Shape := ⟨3, ![2048, 256, 256]⟩
abbrev S_ : Shape := ⟨0, ![]⟩

class Facts : Prop where
  bcast_S_S2048x256x256 : S_.BroadcastsInDim S2048x256x256 (![] : Fin 0 → Fin S2048x256x256.rank)
  reducesTo_S2048x256x256_S_d0_1_2 : S2048x256x256.ReducesTo [0, 1, 2] S_
  h_S_ : 0 < S_.numel

variable [Facts]

def fn {F : FTy → Type} [FloatOps F] (main_arg0 : FVec F S2048x256x256 .f32) : IVec S_ 1 :=
  let main_v0 : FVec F S2048x256x256 .f32 := Host.absf main_arg0
  let main_cst : FVec F S_ .f32 := constant S_ .f32 0x7F800000#32
  let main_v1 : FVec F S2048x256x256 .f32 := broadcastInDim S2048x256x256 ![] bcast_S_S2048x256x256 main_cst
  let main_v2 : IVec S2048x256x256 1 := cmpf .olt main_v0 main_v1
  let main_c : IVec S_ 1 := constantI S_ 1 1#1
  let main_v3 : IVec S_ 1 := (fun x v => Host.reduce IntOp.andi x v reducesTo_S2048x256x256_S_d0_1_2 h_S_) main_v2 main_c
  main_v3
-- ==== Kernel.lean ====
abbrev S2048x256x256 : Shape := ⟨3, ![2048, 256, 256]⟩
abbrev S2048x7x7 : Shape := ⟨3, ![2048, 7, 7]⟩
abbrev S256x48x128 : Shape := ⟨3, ![256, 48, 128]⟩
abbrev S256x7x7 : Shape := ⟨3, ![256, 7, 7]⟩
abbrev S256x43x43 : Shape := ⟨3, ![256, 43, 43]⟩
abbrev S256x37x37 : Shape := ⟨3, ![256, 37, 37]⟩
abbrev S256x37 : Shape := ⟨2, ![256, 37]⟩
abbrev S256 : Shape := ⟨1, ![256]⟩
abbrev S256x1 : Shape := ⟨2, ![256, 1]⟩
abbrev S256x7 : Shape := ⟨2, ![256, 7]⟩
abbrev S256x1x7 : Shape := ⟨3, ![256, 1, 7]⟩

abbrev nBuf : Space → Nat
  | .hbm => 2
  | .vmem => 4
  | .smem => 0
  | _ => 0

abbrev bufTy : (tb : Table) → Fin (tcTables nBuf tb) → BufTy
  | .hbm, ⟨0, _⟩ => ⟨S2048x256x256, .f32⟩
  | .hbm, ⟨1, _⟩ => ⟨S2048x7x7, .f32⟩
  | .local _ .vmem, ⟨0, _⟩ => ⟨S256x48x128, .f32⟩
  | .local _ .vmem, ⟨1, _⟩ => ⟨S256x48x128, .f32⟩
  | .local _ .vmem, ⟨2, _⟩ => ⟨S256x7x7, .f32⟩
  | .local _ .vmem, ⟨3, _⟩ => ⟨S256x7x7, .f32⟩
  | _, _ => ⟨S2048x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x48x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x48x128_S256x48x128_0_0_0 : ∀ a, (![0, 0, 0] : Fin 3 → Nat) a + S256x48x128.size a ≤ S256x48x128.size a
  h_S256x48x128 : 0 < S256x48x128.numel
  slices_S256x48x128_o0_0_0_S256x43x43 : S256x48x128.Slices ![0, 0, 0] S256x43x43
  slices_S256x43x43_o0_0_0_S256x37x37 : S256x43x43.Slices ![0, 0, 0] S256x37x37
  reduces_S256x37x37_S256x37 : S256x37x37.Reduces [2] S256x37
  reduces_S256x37_S256 : S256x37.Reduces [1] S256
  slices_S256x43x43_o0_0_1_S256x37x37 : S256x43x43.Slices ![0, 0, 1] S256x37x37
  slices_S256x43x43_o0_0_2_S256x37x37 : S256x43x43.Slices ![0, 0, 2] S256x37x37
  slices_S256x43x43_o0_0_3_S256x37x37 : S256x43x43.Slices ![0, 0, 3] S256x37x37
  slices_S256x43x43_o0_0_4_S256x37x37 : S256x43x43.Slices ![0, 0, 4] S256x37x37
  slices_S256x43x43_o0_0_5_S256x37x37 : S256x43x43.Slices ![0, 0, 5] S256x37x37
  slices_S256x43x43_o0_0_6_S256x37x37 : S256x43x43.Slices ![0, 0, 6] S256x37x37
  shapeCasts_S256_S256x1 : S256.ShapeCasts S256x1
  concatenates_S256x1_S256x1_S256x1_S256x1_S256x1_S256x1_S256x1_S256x7_d1 : Shape.Concatenates [S256x1, S256x1, S256x1, S256x1, S256x1, S256x1, S256x1] S256x7 1
  slices_S256x43x43_o0_1_0_S256x37x37 : S256x43x43.Slices ![0, 1, 0] S256x37x37
  slices_S256x43x43_o0_1_1_S256x37x37 : S256x43x43.Slices ![0, 1, 1] S256x37x37
  slices_S256x43x43_o0_1_2_S256x37x37 : S256x43x43.Slices ![0, 1, 2] S256x37x37
  slices_S256x43x43_o0_1_3_S256x37x37 : S256x43x43.Slices ![0, 1, 3] S256x37x37
  slices_S256x43x43_o0_1_4_S256x37x37 : S256x43x43.Slices ![0, 1, 4] S256x37x37
  slices_S256x43x43_o0_1_5_S256x37x37 : S256x43x43.Slices ![0, 1, 5] S256x37x37
  slices_S256x43x43_o0_1_6_S256x37x37 : S256x43x43.Slices ![0, 1, 6] S256x37x37
  slices_S256x43x43_o0_2_0_S256x37x37 : S256x43x43.Slices ![0, 2, 0] S256x37x37
  slices_S256x43x43_o0_2_1_S256x37x37 : S256x43x43.Slices ![0, 2, 1] S256x37x37
  slices_S256x43x43_o0_2_2_S256x37x37 : S256x43x43.Slices ![0, 2, 2] S256x37x37
  slices_S256x43x43_o0_2_3_S256x37x37 : S256x43x43.Slices ![0, 2, 3] S256x37x37
  slices_S256x43x43_o0_2_4_S256x37x37 : S256x43x43.Slices ![0, 2, 4] S256x37x37
  slices_S256x43x43_o0_2_5_S256x37x37 : S256x43x43.Slices ![0, 2, 5] S256x37x37
  slices_S256x43x43_o0_2_6_S256x37x37 : S256x43x43.Slices ![0, 2, 6] S256x37x37
  slices_S256x43x43_o0_3_0_S256x37x37 : S256x43x43.Slices ![0, 3, 0] S256x37x37
  slices_S256x43x43_o0_3_1_S256x37x37 : S256x43x43.Slices ![0, 3, 1] S256x37x37
  slices_S256x43x43_o0_3_2_S256x37x37 : S256x43x43.Slices ![0, 3, 2] S256x37x37
  slices_S256x43x43_o0_3_3_S256x37x37 : S256x43x43.Slices ![0, 3, 3] S256x37x37
  slices_S256x43x43_o0_3_4_S256x37x37 : S256x43x43.Slices ![0, 3, 4] S256x37x37
  slices_S256x43x43_o0_3_5_S256x37x37 : S256x43x43.Slices ![0, 3, 5] S256x37x37
  slices_S256x43x43_o0_3_6_S256x37x37 : S256x43x43.Slices ![0, 3, 6] S256x37x37
  slices_S256x43x43_o0_4_0_S256x37x37 : S256x43x43.Slices ![0, 4, 0] S256x37x37
  slices_S256x43x43_o0_4_1_S256x37x37 : S256x43x43.Slices ![0, 4, 1] S256x37x37
  slices_S256x43x43_o0_4_2_S256x37x37 : S256x43x43.Slices ![0, 4, 2] S256x37x37
  slices_S256x43x43_o0_4_3_S256x37x37 : S256x43x43.Slices ![0, 4, 3] S256x37x37
  slices_S256x43x43_o0_4_4_S256x37x37 : S256x43x43.Slices ![0, 4, 4] S256x37x37
  slices_S256x43x43_o0_4_5_S256x37x37 : S256x43x43.Slices ![0, 4, 5] S256x37x37
  slices_S256x43x43_o0_4_6_S256x37x37 : S256x43x43.Slices ![0, 4, 6] S256x37x37
  slices_S256x43x43_o0_5_0_S256x37x37 : S256x43x43.Slices ![0, 5, 0] S256x37x37
  slices_S256x43x43_o0_5_1_S256x37x37 : S256x43x43.Slices ![0, 5, 1] S256x37x37
  slices_S256x43x43_o0_5_2_S256x37x37 : S256x43x43.Slices ![0, 5, 2] S256x37x37
  slices_S256x43x43_o0_5_3_S256x37x37 : S256x43x43.Slices ![0, 5, 3] S256x37x37
  slices_S256x43x43_o0_5_4_S256x37x37 : S256x43x43.Slices ![0, 5, 4] S256x37x37
  slices_S256x43x43_o0_5_5_S256x37x37 : S256x43x43.Slices ![0, 5, 5] S256x37x37
  slices_S256x43x43_o0_5_6_S256x37x37 : S256x43x43.Slices ![0, 5, 6] S256x37x37
  slices_S256x43x43_o0_6_0_S256x37x37 : S256x43x43.Slices ![0, 6, 0] S256x37x37
  slices_S256x43x43_o0_6_1_S256x37x37 : S256x43x43.Slices ![0, 6, 1] S256x37x37
  slices_S256x43x43_o0_6_2_S256x37x37 : S256x43x43.Slices ![0, 6, 2] S256x37x37
  slices_S256x43x43_o0_6_3_S256x37x37 : S256x43x43.Slices ![0, 6, 3] S256x37x37
  slices_S256x43x43_o0_6_4_S256x37x37 : S256x43x43.Slices ![0, 6, 4] S256x37x37
  slices_S256x43x43_o0_6_5_S256x37x37 : S256x43x43.Slices ![0, 6, 5] S256x37x37
  slices_S256x43x43_o0_6_6_S256x37x37 : S256x43x43.Slices ![0, 6, 6] S256x37x37
  shapeCasts_S256x7_S256x1x7 : S256x7.ShapeCasts S256x1x7
  concatenates_S256x1x7_S256x1x7_S256x1x7_S256x1x7_S256x1x7_S256x1x7_S256x1x7_S256x7x7_d1 : Shape.Concatenates [S256x1x7, S256x1x7, S256x1x7, S256x1x7, S256x1x7, S256x1x7, S256x1x7] S256x7x7 1
  inb_S256x7x7_S256x7x7_0_0_0 : ∀ a, (![0, 0, 0] : Fin 3 → Nat) a + S256x7x7.size a ≤ S256x7x7.size a
  h_S256x7x7 : 0 < S256x7x7.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x48x128.size a < S2048x256x256.size a
  hwx0_0 : ∀ i : grid0.Coords, EltTy.bits .f32 = 32 ∨ (Rect.unit (s := S2048x256x256) (fun a => cc0_transform_0 i a * S256x48x128.size a) (fun a => (Pipeline.Clip.of (cc0_transform_0 i a) (S256x48x128.size a) (S2048x256x256.size a)).extent (S256x48x128.size a)) fun a => Pipeline.Clip.inb (Pipeline.Clip.ok_of (hstart0_0 i a))).WholeWords (EltTy.packing .f32)
  hwxs0_0 : ∀ i : grid0.Coords, EltTy.bits .f32 = 32 ∨ (Rect.unit (s := S256x48x128) (fun _ => 0) (fun a => (Pipeline.Clip.of (cc0_transform_0 i a) (S256x48x128.size a) (S2048x256x256.size a)).extent (S256x48x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x7x7.size a ≤ S2048x7x7.size a
  hwx0_1 : ∀ i : grid0.Coords, EltTy.bits .f32 = 32 ∨ (Rect.block (s := S2048x7x7) S256x7x7.size (cc0_transform_1 i) (hinb0_1 i)).WholeWords (EltTy.packing .f32)

variable [Facts₀]

abbrev win0_0 : Pipeline.Window sig grid0 :=
  Pipeline.Window.ofSpecClip (Memref.whole main_arg0) S256x48x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S256x7x7.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x256x256 : Shape := ⟨3, ![2048, 256, 256]⟩
abbrev S2048x43x43 : Shape := ⟨3, ![2048, 43, 43]⟩
abbrev S_ : Shape := ⟨0, ![]⟩
abbrev S2048x7x7 : Shape := ⟨3, ![2048, 7, 7]⟩

abbrev nBuf : Space → Nat
  | .hbm => 5
  | .vmem => 0
  | .smem => 0
  | _ => 0

abbrev bufTy : (tb : Table) → Fin (tcTables nBuf tb) → BufTy
  | .hbm, ⟨0, _⟩ => ⟨S2048x256x256, .f32⟩
  | .hbm, ⟨1, _⟩ => ⟨S2048x43x43, .f32⟩
  | .hbm, ⟨2, _⟩ => ⟨S_, .f32⟩
  | .hbm, ⟨3, _⟩ => ⟨S_, .f32⟩
  | .hbm, ⟨4, _⟩ => ⟨S2048x7x7, .f32⟩
  | _, _ => ⟨S2048x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  slices_S2048x256x256_S2048x43x43_0_0_0 : S2048x256x256.Slices ![0, 0, 0] S2048x43x43
  bcast_S_S_ : S_.BroadcastsInDim S_ (![] : Fin 0 → Fin S_.rank)
  reduceWindows_S2048x43x43_S2048x7x7_w1s1p0_0_w37s1p0_0_w37s1p0_0 : S2048x43x43.ReduceWindows (![1, 37, 37] : Fin 3 → Nat) ![1, 1, 1] ![0, 0, 0] ![0, 0, 0] S2048x7x7
  h_S_ : 0 < S_.numel

variable [Facts₀]

class Facts : Prop extends Facts₀ where

variable [Facts]
-- ==== Proof.KernelPool.lean ====
/-
  The frame of the pooling program, at any float instance, and what its run leaves in the result array.

  The program is one pipelined call over a grid of eight points. Point `t` stages channels 256 t ‥ 256 t + 255 of the
  argument: of each channel the 48 × 128 corner, the smallest tile-aligned box that holds the 43 × 43 corner the
  pooling reads. The block's index on the two spatial axes is always 0, so every block lies inside the 256 × 256
  channel and the fetch fills the whole staging buffer with it (`clip_none`). The body loads that buffer once,
  computes from it a 256 × 7 × 7 table (`pooled`: entry (c, i, j) is the maximum of the 37 × 37 window of channel c
  whose corner is (i, j)), and stores the table over the whole output buffer, which is written back as channels
  256 t ‥ 256 t + 255 of the result.

  Proved here: the body's triple (`sound_kernel`: one whole load, pure arithmetic, one whole store), what each
  staging buffer holds when the body starts (`before_in`: the block just fetched; `before_out`: anything), the
  body obligation at every point, the run of the whole program to the library's post (`run_main`: the argument as
  launched, the result overwritten block by block with the tables), and the frame (`frame`).
-/
import proofs.«116581_j7215545057804_1_alg».proof.Proof.Gen.Kernel.Frame
import proofs.«116581_j7215545057804_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of window maxima the body stores, as ONE function of the block it loads: the 43 × 43 corner of each
    channel's tile, the forty-nine 37 × 37 windows of it reduced over their two axes, laid out seven by seven. -/
def pooled (x : Vec F S256x48x128 .f32) : FVec F S256x7x7 .f32 :=
  k0_pay1 (k0_pay3 x)
    (k0_pay7 (k0_pay2 x) (k0_pay4 x) (k0_pay5 x) (k0_pay6 x))
    (k0_pay14 (k0_pay2 x) (k0_pay8 (k0_pay2 x)) (k0_pay9 (k0_pay2 x)) (k0_pay10 (k0_pay2 x)) (k0_pay11 (k0_pay2 x))
      (k0_pay12 (k0_pay2 x)) (k0_pay13 (k0_pay2 x)))
    (k0_pay15 (k0_pay2 x))
    (k0_pay17 (k0_pay2 x) (k0_pay16 (k0_pay2 x)))
    (k0_pay22 (k0_pay2 x) (k0_pay18 (k0_pay2 x)) (k0_pay19 (k0_pay2 x)) (k0_pay20 (k0_pay2 x)) (k0_pay21 (k0_pay2 x)))
    (k0_pay23 (k0_pay2 x)) (k0_pay24 (k0_pay2 x)) (k0_pay25 (k0_pay2 x)) (k0_pay26 (k0_pay2 x))
    (k0_pay27 (k0_pay2 x)) (k0_pay28 (k0_pay2 x)) (k0_pay29 (k0_pay2 x))

/-- The offsets of a whole-buffer access, however the zeros are spelt. -/
theorem zero3 : (![0, 0, 0] : Fin 3 → Nat) = fun _ => 0 := funext fun a => by fin_cases a <;> rfl

set_option maxHeartbeats 1000000 in
/-- The body's triple: on whole staging memrefs, the input's holding `x` and the output's anything, the body runs to a
    state in which the input's still holds `x` and the output's holds `pooled x`. Its one load reads the whole
    input buffer, its one store overwrites the whole output buffer, and everything between them is pure. -/
theorem sound_kernel (c : Dev nD) (E : Set ℕ) (i : grid0.Coords)
    (arg1 : Memref sig .tc .vmem S256x48x128 .f32) (harg1 : arg1.IsWhole)
    (arg2 : Memref sig .tc .vmem S256x7x7 .f32) (harg2 : arg2.IsWhole)
    (x : Vec F S256x48x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (pooled x)) -∗ K ⟨⟩))
      ⊢ wp frame (wpE (defs₀ (F := F)) Variants.none c none) E (cc0__roi_pool_kernel i arg1 harg1 arg2 harg2) K := by
  simp only [cc0__roi_pool_kernel_eq_skeleton]; unfold cc0__roi_pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  sl_unfold_words
  rw [View.read_writes_eq_canon _ _ _ (View.cover_of_tiled _ S256x7x7.size (by rfl)), View.canon_unit_zero zero3]
  simp only [View.readAt_eq_ld, View.ld_unit_zero (S := S256x48x128) zero3]
  rfl

variable (m : (ℓ : Loc nD τ sig) → Buf (Elt F) ℓ) (ρ : Dev nD → PrngReg)

/-! ## What the staging buffers hold -/

/-- The input window's block index at point `t` is `(t, 0, 0)`: 256 channels, rows 0‥47, columns 0‥127, all inside
    the 2048 × 256 × 256 array, so no transfer of it is cut short. -/
theorem clip_none (t : Fin cfg0.N) (a : Fin 3) : (cfg0.win 0).clip (cfg0.grid.coords t) a = none :=
  (by decide +kernel : ∀ (t : Fin grid0.N) (a : Fin 3), win0_0.clip (grid0.coords t) a = none) t a

/-- The input staging buffer at point `t` once the fetch has landed: the array's block there. (The fetch fills the
    whole buffer, `clip_none`; the filler is never read.) -/
def tile (c : Dev nD) (t : Fin cfg0.N) : Vec F S256x48x128 .f32 :=
  win0_0.fill (grid0.coords t) (fun _ => Scalar.ofBits .f32 0#32) (iblk m c 0 t)

/-- The proof data of the one pipeline on core `c`: the arrays as the region finds them; after the body at point
    `t` the input's buffer still at its block and the output's at the table of window maxima of that block; the
    class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tile m c t
    | ⟨1, _⟩ => pooled (tile m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in (c : Dev nD) (t : Fin cfg0.N) : (dats m 0 c).after 0 t = tile m c t := by dsimp only [dats]
theorem after_out (c : Dev nD) (t : Fin cfg0.N) : (dats m 0 c).after 1 t = pooled (tile m c t) := by dsimp only [dats]

/-- The input window is fetched at every point, so the body finds the block there, whatever the buffer held. -/
theorem before_in (c : Dev nD) (t : Fin cfg0.N) (d) : (dats m 0 c).before 0 t d = tile m c t := by
  rw [Dat.before_fetched _ 0 t (fetch0_0 t)]
  unfold Dat.fetched Dat.blockOf tile iblk
  rw [A_eq]
  exact Pipeline.fill_of_clip_none (cfg := cfg0) 0 (grid0.coords t) (clip_none t) _ _ _

/-- The output window is written back at every point, so the body finds its buffer at contents nothing names. -/
theorem before_out (c : Dev nD) (t : Fin cfg0.N) (d) : (dats m 0 c).before 1 t d = d := by
  refine Dat.before_out_reset _ 1 rfl t ?_ d
  by_cases h : t.val = 0
  · exact .inl h
  · exact .inr ⟨h, flush0_1 _⟩

/-! ## The body obligation -/

/-- The body at any point: the input's buffer holds the block (`before_in`), so `sound_kernel` applies; the
    invariant and what the core owes pass through unread. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t))) := by
  unfold bodyAt0
  simp only [before_in, before_out]
  rw [show (dats m 0 c).Φ t.succ = (dats m 0 c).Φ t.castSucc from rfl,
    show (dats m 0 c).owesAt () t.succ = (dats m 0 c).owesAt () t.castSucc from rfl, after_in, after_out]
  iintro ⟨HΦ, Ho, ⟨%d0, H0⟩, ⟨%d1, H1⟩⟩
  iapply (sound_kernel c Set.univ (grid0.coords t) _ _ _ _ (tile m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) :
    BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    each array of the pipeline at what the library computes from the proof data: the argument as launched, the
    result overwritten block by block with the tables the body left. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere and leaves its argument array as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Pool

end
-- ==== Proof.KernelIdealPool.lean ====
/-
  The frame of the pooling program, at any float instance, and what its run leaves in the result array.

  The program is one pipelined call over a grid of eight points. Point `t` stages channels 256 t ‥ 256 t + 255 of the
  argument: of each channel the 48 × 128 corner, the smallest tile-aligned box that holds the 43 × 43 corner the
  pooling reads. The block's index on the two spatial axes is always 0, so every block lies inside the 256 × 256
  channel and the fetch fills the whole staging buffer with it (`clip_none`). The body loads that buffer once,
  computes from it a 256 × 7 × 7 table (`pooled`: entry (c, i, j) is the maximum of the 37 × 37 window of channel c
  whose corner is (i, j)), and stores the table over the whole output buffer, which is written back as channels
  256 t ‥ 256 t + 255 of the result.

  Proved here: the body's triple (`sound_kernel`: one whole load, pure arithmetic, one whole store), what each
  staging buffer holds when the body starts (`before_in`: the block just fetched; `before_out`: anything), the
  body obligation at every point, the run of the whole program to the library's post (`run_main`: the argument as
  launched, the result overwritten block by block with the tables), and the frame (`frame`).
-/
import proofs.«116581_j7215545057804_1_alg».proof.Proof.Gen.KernelIdeal.Frame
import proofs.«116581_j7215545057804_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of window maxima the body stores, as ONE function of the block it loads: the 43 × 43 corner of each
    channel's tile, the forty-nine 37 × 37 windows of it reduced over their two axes, laid out seven by seven. -/
def pooled (x : Vec F S256x48x128 .f32) : FVec F S256x7x7 .f32 :=
  k0_pay1 (k0_pay3 x)
    (k0_pay7 (k0_pay2 x) (k0_pay4 x) (k0_pay5 x) (k0_pay6 x))
    (k0_pay14 (k0_pay2 x) (k0_pay8 (k0_pay2 x)) (k0_pay9 (k0_pay2 x)) (k0_pay10 (k0_pay2 x)) (k0_pay11 (k0_pay2 x))
      (k0_pay12 (k0_pay2 x)) (k0_pay13 (k0_pay2 x)))
    (k0_pay15 (k0_pay2 x))
    (k0_pay17 (k0_pay2 x) (k0_pay16 (k0_pay2 x)))
    (k0_pay22 (k0_pay2 x) (k0_pay18 (k0_pay2 x)) (k0_pay19 (k0_pay2 x)) (k0_pay20 (k0_pay2 x)) (k0_pay21 (k0_pay2 x)))
    (k0_pay23 (k0_pay2 x)) (k0_pay24 (k0_pay2 x)) (k0_pay25 (k0_pay2 x)) (k0_pay26 (k0_pay2 x))
    (k0_pay27 (k0_pay2 x)) (k0_pay28 (k0_pay2 x)) (k0_pay29 (k0_pay2 x))

/-- The offsets of a whole-buffer access, however the zeros are spelt. -/
theorem zero3 : (![0, 0, 0] : Fin 3 → Nat) = fun _ => 0 := funext fun a => by fin_cases a <;> rfl

set_option maxHeartbeats 1000000 in
/-- The body's triple: on whole staging memrefs, the input's holding `x` and the output's anything, the body runs to a
    state in which the input's still holds `x` and the output's holds `pooled x`. Its one load reads the whole
    input buffer, its one store overwrites the whole output buffer, and everything between them is pure. -/
theorem sound_kernel (c : Dev nD) (E : Set ℕ) (i : grid0.Coords)
    (arg1 : Memref sig .tc .vmem S256x48x128 .f32) (harg1 : arg1.IsWhole)
    (arg2 : Memref sig .tc .vmem S256x7x7 .f32) (harg2 : arg2.IsWhole)
    (x : Vec F S256x48x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (pooled x)) -∗ K ⟨⟩))
      ⊢ wp frame (wpE (defs₀ (F := F)) Variants.none c none) E (cc0__roi_pool_kernel i arg1 harg1 arg2 harg2) K := by
  simp only [cc0__roi_pool_kernel_eq_skeleton]; unfold cc0__roi_pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  sl_unfold_words
  rw [View.read_writes_eq_canon _ _ _ (View.cover_of_tiled _ S256x7x7.size (by rfl)), View.canon_unit_zero zero3]
  simp only [View.readAt_eq_ld, View.ld_unit_zero (S := S256x48x128) zero3]
  rfl

variable (m : (ℓ : Loc nD τ sig) → Buf (Elt F) ℓ) (ρ : Dev nD → PrngReg)

/-! ## What the staging buffers hold -/

/-- The input window's block index at point `t` is `(t, 0, 0)`: 256 channels, rows 0‥47, columns 0‥127, all inside
    the 2048 × 256 × 256 array, so no transfer of it is cut short. -/
theorem clip_none (t : Fin cfg0.N) (a : Fin 3) : (cfg0.win 0).clip (cfg0.grid.coords t) a = none :=
  (by decide +kernel : ∀ (t : Fin grid0.N) (a : Fin 3), win0_0.clip (grid0.coords t) a = none) t a

/-- The input staging buffer at point `t` once the fetch has landed: the array's block there. (The fetch fills the
    whole buffer, `clip_none`; the filler is never read.) -/
def tile (c : Dev nD) (t : Fin cfg0.N) : Vec F S256x48x128 .f32 :=
  win0_0.fill (grid0.coords t) (fun _ => Scalar.ofBits .f32 0#32) (iblk m c 0 t)

/-- The proof data of the one pipeline on core `c`: the arrays as the region finds them; after the body at point
    `t` the input's buffer still at its block and the output's at the table of window maxima of that block; the
    class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tile m c t
    | ⟨1, _⟩ => pooled (tile m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in (c : Dev nD) (t : Fin cfg0.N) : (dats m 0 c).after 0 t = tile m c t := by dsimp only [dats]
theorem after_out (c : Dev nD) (t : Fin cfg0.N) : (dats m 0 c).after 1 t = pooled (tile m c t) := by dsimp only [dats]

/-- The input window is fetched at every point, so the body finds the block there, whatever the buffer held. -/
theorem before_in (c : Dev nD) (t : Fin cfg0.N) (d) : (dats m 0 c).before 0 t d = tile m c t := by
  rw [Dat.before_fetched _ 0 t (fetch0_0 t)]
  unfold Dat.fetched Dat.blockOf tile iblk
  rw [A_eq]
  exact Pipeline.fill_of_clip_none (cfg := cfg0) 0 (grid0.coords t) (clip_none t) _ _ _

/-- The output window is written back at every point, so the body finds its buffer at contents nothing names. -/
theorem before_out (c : Dev nD) (t : Fin cfg0.N) (d) : (dats m 0 c).before 1 t d = d := by
  refine Dat.before_out_reset _ 1 rfl t ?_ d
  by_cases h : t.val = 0
  · exact .inl h
  · exact .inr ⟨h, flush0_1 _⟩

/-! ## The body obligation -/

/-- The body at any point: the input's buffer holds the block (`before_in`), so `sound_kernel` applies; the
    invariant and what the core owes pass through unread. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t))) := by
  unfold bodyAt0
  simp only [before_in, before_out]
  rw [show (dats m 0 c).Φ t.succ = (dats m 0 c).Φ t.castSucc from rfl,
    show (dats m 0 c).owesAt () t.succ = (dats m 0 c).owesAt () t.castSucc from rfl, after_in, after_out]
  iintro ⟨HΦ, Ho, ⟨%d0, H0⟩, ⟨%d1, H1⟩⟩
  iapply (sound_kernel c Set.univ (grid0.coords t) _ _ _ _ (tile m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) :
    BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    each array of the pipeline at what the library computes from the proof data: the argument as launched, the
    result overwritten block by block with the tables the body left. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere and leaves its argument array as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Pool

end
-- ==== Proof.LibWindowMax.lean ====
/-
  Maxima over windows, at the extended reals.

  * A left fold of `max` from the bottom element over `List.finRange N` is the supremum over `Fin N`.
  * A host `reduce_window` whose body is `max` and whose initial value is the bottom element, at a result index
    every window position of which lies inside the operand, is the supremum of the operand over the window:
    the window's positions are the indices of the shape `⟨rank, window⟩`, position `w` reading the operand at
    `j · stride + w − lo` on every axis.
  * Two successive one-axis maximum reductions of a rank-3 array from `-∞` (the last axis, then the last axis of
    what is left) read at a row are the supremum over both reduced coordinates.
-/
import Idealize.ShloMosaic.PureOps.Ideal
import Idealize.ShloMosaic.PureOps.Ideal.Laws
import Idealize.ShloMosaic.PureOps.Contract
import Idealize.ShloMosaic.Lib.ValueIdx
import Mathlib.Data.Finset.Lattice.Fold
import Mathlib.Data.Fintype.Basic

noncomputable section

namespace Idealize.ShloMosaic.WindowMax

open Idealize.ShloMosaic Idealize.ShloMosaic.ValueIdx

section Order
variable {α : Type} [LinearOrder α] [OrderBot α]

/-- A left fold of `max` over a list, from `a`: `a` joined with the supremum over the list's elements. -/
theorem foldl_max_eq_sup_toFinset {ι : Type} [DecidableEq ι] (g : ι → α) (l : List ι) (a : α) :
    l.foldl (fun r n => max r (g n)) a = a ⊔ l.toFinset.sup g := by
  induction l generalizing a with
  | nil => simp
  | cons x l ih => rw [List.foldl_cons, ih, List.toFinset_cons, Finset.sup_insert, sup_assoc]

/-- From the bottom element over every `n : Fin N` in order: the supremum over `Fin N`. -/
theorem foldl_max_finRange (N : Nat) (g : Fin N → α) :
    (List.finRange N).foldl (fun r n => max r (g n)) ⊥ = Finset.univ.sup g := by
  rw [foldl_max_eq_sup_toFinset, List.toFinset_finRange, bot_sup_eq]

/-- A supremum over a finite type is unchanged by re-indexing along a bijection. -/
theorem sup_univ_comp_equiv {ι κ : Type} [Fintype ι] [Fintype κ] (e : ι ≃ κ) (g : κ → α) :
    Finset.univ.sup (fun i => g (e i)) = Finset.univ.sup g := by
  apply le_antisymm
  · exact Finset.sup_le fun i _ => Finset.le_sup (f := g) (Finset.mem_univ (e i))
  · refine Finset.sup_le fun k _ => ?_
    have := Finset.le_sup (f := fun i => g (e i)) (Finset.mem_univ (e.symm k))
    simpa using this

/-- **A host `reduce_window` with body `max` from the bottom element, read at a result index** all of whose
    window positions are inside the operand (`hin`): the supremum of the operand over the window. -/
theorem reduceWindow_max_apply {s t u : Shape} (window strides lo hi : Fin s.rank → Nat) (x : s.Idx → α) (init : u.Idx → α)
    (h : s.ReduceWindows window strides lo hi t) (hu : 0 < u.numel) (hinit : init (Shape.Idx.first hu) = ⊥) (j : t.Idx)
    (hin : ∀ (w : (⟨s.rank, window⟩ : Shape).Idx) (a : Fin s.rank),
      lo a ≤ (j (a.cast h.1.symm)).val * strides a + (w a).val
        ∧ (j (a.cast h.1.symm)).val * strides a + (w a).val - lo a < s.size a) :
    Host.reduceWindow max window strides lo hi x init h hu j
      = Finset.univ.sup fun w : (⟨s.rank, window⟩ : Shape).Idx =>
          x (fun a => ⟨(j (a.cast h.1.symm)).val * strides a + (w a).val - lo a, (hin w a).2⟩) := by
  unfold Host.reduceWindow
  dsimp only
  rw [hinit]
  have hstep : (fun (r : α) (n : Fin (⟨s.rank, window⟩ : Shape).numel) =>
        max r (if hin' : ∀ a, lo a ≤ (j (a.cast h.1.symm)).val * strides a + ((Shape.rowMajor (⟨s.rank, window⟩ : Shape)).symm n a).val
            ∧ (j (a.cast h.1.symm)).val * strides a + ((Shape.rowMajor (⟨s.rank, window⟩ : Shape)).symm n a).val - lo a < s.size a
          then x (fun a => ⟨(j (a.cast h.1.symm)).val * strides a + ((Shape.rowMajor (⟨s.rank, window⟩ : Shape)).symm n a).val - lo a, (hin' a).2⟩)
          else ⊥))
      = fun r n => max r ((fun w : (⟨s.rank, window⟩ : Shape).Idx =>
          x (fun a => ⟨(j (a.cast h.1.symm)).val * strides a + (w a).val - lo a, (hin w a).2⟩))
            ((Shape.rowMajor (⟨s.rank, window⟩ : Shape)).symm n)) := by
    funext r n
    rw [dif_pos (hin _)]
  refine (congrArg (fun f : α → Fin (⟨s.rank, window⟩ : Shape).numel → α => List.foldl f (⊥ : α) (List.finRange _)) hstep).trans ?_
  rw [foldl_max_finRange]
  exact sup_univ_comp_equiv (α := α) (Shape.rowMajor (⟨s.rank, window⟩ : Shape)).symm
    (fun w : (⟨s.rank, window⟩ : Shape).Idx =>
      x (fun a => ⟨(j (a.cast h.1.symm)).val * strides a + (w a).val - lo a, (hin w a).2⟩))

end Order

/-! ## The sliding maximum over the last two axes -/

section Slide
variable {α : Type} [LinearOrder α] [OrderBot α]

theorem idx3_lt0 {n0 n1 n2 : Nat} (o : (⟨3, ![n0, n1, n2]⟩ : Shape).Idx) : (o 0).val < n0 := (o 0).isLt
theorem idx3_lt1 {n0 n1 n2 : Nat} (o : (⟨3, ![n0, n1, n2]⟩ : Shape).Idx) : (o 1).val < n1 := (o 1).isLt
theorem idx3_lt2 {n0 n1 n2 : Nat} (o : (⟨3, ![n0, n1, n2]⟩ : Shape).Idx) : (o 2).val < n2 := (o 2).isLt

/-- Entry `(c, i, j)` of the maximum over `k × k` windows, stride one, of a rank-3 array's last two axes: the
    supremum of row `c` over rows `i ‥ i + k − 1` and columns `j ‥ j + k − 1`. The result has `P × Q` windows per row
    of the first axis; `hP`, `hQ` say that the last window still lies inside the array. -/
def slideMax {N H W : Nat} (k P Q : Nat) (hP : P + k ≤ H + 1) (hQ : Q + k ≤ W + 1)
    (X : (⟨3, ![N, H, W]⟩ : Shape).Idx → α) : (⟨3, ![N, P, Q]⟩ : Shape).Idx → α :=
  fun o => Finset.univ.sup fun a : Fin k => Finset.univ.sup fun b : Fin k =>
    X (ix3 (⟨(o 0).val, idx3_lt0 o⟩ : Fin N)
      (⟨(o 1).val + a.val, by have := idx3_lt1 o; have := a.isLt; omega⟩ : Fin H)
      (⟨(o 2).val + b.val, by have := idx3_lt2 o; have := b.isLt; omega⟩ : Fin W))

/-- A supremum over the index set of the shape `[1, B, C]` is the double supremum over its last two coordinates. -/
theorem sup_idx3_one {B C : Nat} (f : (⟨3, ![1, B, C]⟩ : Shape).Idx → α) :
    Finset.univ.sup f = Finset.univ.sup fun a : Fin B => Finset.univ.sup fun b : Fin C => f (ix3 (0 : Fin 1) a b) := by
  apply le_antisymm
  · refine Finset.sup_le fun w _ => ?_
    have hw : w = ix3 (0 : Fin 1) (w 1) (w 2) := by
      rw [eq_ix3 w]
      have h0 : w 0 = (0 : Fin 1) := Fin.ext (by have := idx3_lt0 w; simp; omega)
      funext d
      match d with
      | ⟨0, _⟩ => exact h0
      | ⟨1, _⟩ => rfl
      | ⟨2, _⟩ => rfl
    rw [hw]
    exact Finset.le_sup_of_le (Finset.mem_univ (w 1))
      (Finset.le_sup (f := fun b : Fin C => f (ix3 (0 : Fin 1) (w 1) b)) (Finset.mem_univ (w 2)))
  · refine Finset.sup_le fun a _ => Finset.sup_le fun b _ => ?_
    exact Finset.le_sup (f := f) (Finset.mem_univ (ix3 (0 : Fin 1) a b))

end Slide

/-- The f32 pattern of `-∞` is the bottom of the extended reals. -/
theorem ofBits_neg_inf_f32 : Ideal.ofBits .f32 0xFF800000#32 = (⊥ : EReal) := by
  simp [Ideal.ofBits, Ideal.ieee]

/-- A one-axis maximum of a rank-3 array over its LAST axis, from `-∞`, read at `(c, a)`: the supremum over the
    last coordinate. -/
theorem max_last3_apply {A B C : Nat} (src : FVec Ideal (⟨3, ![A, B, C]⟩ : Shape) .f32)
    (h2 : (⟨3, ![A, B, C]⟩ : Shape).Reduces [2] ⟨2, ![A, B]⟩) (hφ : FKind.Formats .f32)
    (hacc : (0xFF800000#32 : BitVec 32) = FKind.maximumf.neutral .f32 hφ) (c : Fin A) (a : Fin B) :
    multiReduction .maximumf [2] ⟨2, ![A, B]⟩ src 0xFF800000#32 h2 hφ hacc (ix2 c a)
      = Finset.univ.sup fun b : Fin C => src (ix3 c a b) := by
  rw [Ideal.multiReduction_maximumf_single]
  show Finset.univ.fold max (Ideal.ofBits .f32 0xFF800000#32) (fun b : Fin C => src (h2.lift (ix2 c a) b)) = _
  rw [ofBits_neg_inf_f32]
  have e : ∀ b : Fin C, h2.lift (ix2 c a) b = ix3 c a b := fun b => by
    funext d
    match d with
    | ⟨0, _⟩ => exact Fin.ext rfl
    | ⟨1, _⟩ => exact Fin.ext rfl
    | ⟨2, _⟩ => exact Fin.ext rfl
  simp only [e]
  rfl

/-- A one-axis maximum of a rank-2 array over its LAST axis, from `-∞`, read at `c`: the supremum over the last
    coordinate. -/
theorem max_last2_apply {A B : Nat} (src : FVec Ideal (⟨2, ![A, B]⟩ : Shape) .f32)
    (h1 : (⟨2, ![A, B]⟩ : Shape).Reduces [1] ⟨1, ![A]⟩) (hφ : FKind.Formats .f32)
    (hacc : (0xFF800000#32 : BitVec 32) = FKind.maximumf.neutral .f32 hφ) (c : Fin A) :
    multiReduction .maximumf [1] ⟨1, ![A]⟩ src 0xFF800000#32 h1 hφ hacc (ix1 c)
      = Finset.univ.sup fun a : Fin B => src (ix2 c a) := by
  rw [Ideal.multiReduction_maximumf_single]
  show Finset.univ.fold max (Ideal.ofBits .f32 0xFF800000#32) (fun a : Fin B => src (h1.lift (ix1 c) a)) = _
  rw [ofBits_neg_inf_f32]
  have e : ∀ a : Fin B, h1.lift (ix1 c) a = ix2 c a := fun a => by
    funext d
    match d with
    | ⟨0, _⟩ => exact Fin.ext rfl
    | ⟨1, _⟩ => exact Fin.ext rfl
  simp only [e]
  rfl

/-- **The maximum over the last axis, then over the last axis of what is left**, from `-∞` both times, read at row
    `c`: the supremum of the array's row over both coordinates. -/
theorem max_last_two_apply {A B C : Nat} (src : FVec Ideal (⟨3, ![A, B, C]⟩ : Shape) .f32)
    (h2 : (⟨3, ![A, B, C]⟩ : Shape).Reduces [2] ⟨2, ![A, B]⟩) (h1 : (⟨2, ![A, B]⟩ : Shape).Reduces [1] ⟨1, ![A]⟩)
    (hφ2 hφ1 : FKind.Formats .f32)
    (hacc2 : (0xFF800000#32 : BitVec 32) = FKind.maximumf.neutral .f32 hφ2)
    (hacc1 : (0xFF800000#32 : BitVec 32) = FKind.maximumf.neutral .f32 hφ1) (c : Fin A) :
    multiReduction .maximumf [1] ⟨1, ![A]⟩
        (multiReduction .maximumf [2] ⟨2, ![A, B]⟩ src 0xFF800000#32 h2 hφ2 hacc2) 0xFF800000#32 h1 hφ1 hacc1 (ix1 c)
      = Finset.univ.sup fun a : Fin B => Finset.univ.sup fun b : Fin C => src (ix3 c a b) := by
  rw [max_last2_apply]
  exact congrArg (Finset.univ.sup) (funext fun a => max_last3_apply src h2 hφ2 hacc2 c a)

end Idealize.ShloMosaic.WindowMax

end
-- ==== Proof.PoolTable.lean ====
/-
  The table the body stores is the sliding maximum of the block it loads.

  The printed body takes the 43 × 43 corner of every channel of the loaded block, cuts from it the forty-nine
  37 × 37 windows with corners (i, j), 0 ≤ i, j ≤ 6, reduces each by a maximum over its last axis and then over the
  remaining one (both from -∞), and lays the forty-nine results out by two levels of concatenation, seven columns
  to a row and seven rows to the table. Here the same value is written as ONE term over the window's corner
  (`cell`, `row`, `table`: the printed payload is this term by unfolding, `pooled_eq_table`) and read at an entry:
  entry (c, i, j) is the supremum over 0 ≤ a, b < 37 of the block's entry (c, i + a, j + b) — at the extended
  reals, where the maximum from -∞ is the supremum.
-/
import proofs.«116581_j7215545057804_1_alg».proof.Proof.KernelIdealPool
import proofs.«116581_j7215545057804_1_alg».proof.Proof.LibWindowMax
import Idealize.ShloMosaic.Lib.Pipeline.Value
import Idealize.ShloMosaic.Lib.ValueIdx

set_option maxRecDepth 16384

noncomputable section

namespace Cert.KernelIdeal.PoolTable

open Cert.KernelIdeal Cert.KernelIdeal.Gen Cert.KernelIdeal.Pool
open Idealize.ShloMosaic Idealize.ShloMosaic.ValueIdx Idealize.ShloMosaic.WindowMax

variable {F : FTy → Type} [FloatOps F]

/-- A 37 × 37 window with corner (i, j), i, j ≤ 6, lies inside the 43 × 43 corner. -/
theorem corner_ok (i j : Fin 7) : S256x43x43.Slices ![0, i.val, j.val] S256x37x37 :=
  ⟨rfl, fun a => match a with
    | ⟨0, _⟩ => by show 0 + 256 ≤ 256; omega
    | ⟨1, _⟩ => by show i.val + 37 ≤ 43; have := i.isLt; omega
    | ⟨2, _⟩ => by show j.val + 37 ≤ 43; have := j.isLt; omega⟩

/-- The window with corner (i, j) of every channel, reduced to its maximum: over the last axis, then over the other. -/
def cell (v : FVec F S256x43x43 .f32) (i j : Fin 7) : FVec F S256 .f32 :=
  multiReduction .maximumf [1] S256
    (multiReduction .maximumf [2] S256x37 (extractStridedSlice S256x37x37 ![0, i.val, j.val] v (corner_ok i j))
      0xFF800000#32 reduces_S256x37x37_S256x37 (.inl rfl) rfl)
    0xFF800000#32 reduces_S256x37_S256 (.inl rfl) rfl

/-- Row i of the table: its seven cells side by side. -/
def row (v : FVec F S256x43x43 .f32) (i : Fin 7) : FVec F S256x7 .f32 :=
  concatenate S256x7 1
    (List.ofFn fun j : Fin 7 => (⟨S256x1, shapeCast S256x1 (cell v i j) shapeCasts_S256_S256x1⟩ : (s : Shape) × (s.Idx → F .f32)))
    concatenates_S256x1_S256x1_S256x1_S256x1_S256x1_S256x1_S256x1_S256x7_d1

/-- The table: its seven rows one under the other. -/
def table (v : FVec F S256x43x43 .f32) : FVec F S256x7x7 .f32 :=
  concatenate S256x7x7 1
    (List.ofFn fun i : Fin 7 => (⟨S256x1x7, shapeCast S256x1x7 (row v i) shapeCasts_S256x7_S256x1x7⟩ : (s : Shape) × (s.Idx → F .f32)))
    concatenates_S256x1x7_S256x1x7_S256x1x7_S256x1x7_S256x1x7_S256x1x7_S256x1x7_S256x7x7_d1

set_option maxRecDepth 65536 in
/-- The printed payload is that table of the block's 43 × 43 corner: the same operations on the same operands. -/
theorem pooled_eq_table (x : Vec F S256x48x128 .f32) : pooled x = table (k0_pay2 x) := rfl

/-- Entry (c, i, j) of the table is cell (i, j) at channel c. -/
theorem table_apply (v : FVec F S256x43x43 .f32) (c : Fin 256) (i j : Fin 7) :
    table v (ix3 c i j) = cell v i j (ix1 c) := by
  unfold table
  refine (concatenate_ofFn_unit_apply (t := S256x7x7) (s₁ := S256x1x7) (1 : Fin 3)
    (fun i : Fin 7 => shapeCast S256x1x7 (row v i) shapeCasts_S256x7_S256x1x7) _ rfl rfl (ix3 c i j) i rfl
    (ix3 c (0 : Fin 1) j) ?_).trans ?_
  · intro b hb
    match b with
    | ⟨0, _⟩ => rfl
    | ⟨1, _⟩ => exact absurd rfl hb
    | ⟨2, _⟩ => rfl
  refine (shapeCast_apply (row v i) shapeCasts_S256x7_S256x1x7 (ix3 c (0 : Fin 1) j) (ix2 c j) ?_).trans ?_
  · rw [Shape.rowMajor_val_two, Shape.rowMajor_val_three]
    show c.val * 7 + j.val = (c.val * 1 + 0) * 7 + j.val
    omega
  unfold row
  refine (concatenate_ofFn_unit_apply (t := S256x7) (s₁ := S256x1) (1 : Fin 2)
    (fun j : Fin 7 => shapeCast S256x1 (cell v i j) shapeCasts_S256_S256x1) _ rfl rfl (ix2 c j) j rfl
    (ix2 c (0 : Fin 1)) ?_).trans ?_
  · intro b hb
    match b with
    | ⟨0, _⟩ => rfl
    | ⟨1, _⟩ => exact absurd rfl hb
  refine shapeCast_apply (cell v i j) shapeCasts_S256_S256x1 (ix2 c (0 : Fin 1)) (ix1 c) ?_
  rw [Shape.rowMajor_val_one, Shape.rowMajor_val_two]
  show c.val = c.val * 1 + 0
  omega

/-! ## At the extended reals -/

/-- Cell (i, j) at channel c is the supremum of the corner over the window with corner (i, j). -/
theorem cell_apply (v : FVec Ideal S256x43x43 .f32) (i j : Fin 7) (c : Fin 256) :
    cell v i j (ix1 c) = Finset.univ.sup fun a : Fin 37 => Finset.univ.sup fun b : Fin 37 =>
      v (ix3 c (⟨i.val + a.val, by have := i.isLt; have := a.isLt; omega⟩ : Fin 43)
        (⟨j.val + b.val, by have := j.isLt; have := b.isLt; omega⟩ : Fin 43)) := by
  unfold cell
  refine (max_last_two_apply (A := 256) (B := 37) (C := 37) _ _ _ _ _ _ _ c).trans ?_
  refine congrArg (Finset.univ.sup) (funext fun a => congrArg (Finset.univ.sup) (funext fun b => ?_))
  exact extractStridedSlice_apply ![0, i.val, j.val] v (corner_ok i j) (ix3 c a b) _ (fun d => match d with
    | ⟨0, _⟩ => by show c.val = 0 + c.val; omega
    | ⟨1, _⟩ => rfl
    | ⟨2, _⟩ => rfl)

/-- **What the body stores is the sliding maximum of the block it loaded**: entry (c, i, j) is the supremum of the
    block's channel c over rows i ‥ i + 36 and columns j ‥ j + 36. -/
theorem pooled_eq_slideMax (x : Vec Ideal S256x48x128 .f32) :
    pooled x = slideMax 37 7 7 (by omega) (by omega) x := by
  funext o
  obtain ⟨c, i, j, rfl⟩ : ∃ (c : Fin 256) (i j : Fin 7), o = ix3 c i j := ⟨o 0, o 1, o 2, eq_ix3 o⟩
  rw [pooled_eq_table, table_apply, cell_apply]
  unfold slideMax
  refine congrArg (Finset.univ.sup) (funext fun a => congrArg (Finset.univ.sup) (funext fun b => ?_))
  unfold k0_pay2
  exact extractStridedSlice_apply ![0, 0, 0] x slices_S256x48x128_o0_0_0_S256x43x43 _ _ (fun d => match d with
    | ⟨0, _⟩ => by show c.val = 0 + c.val; omega
    | ⟨1, _⟩ => by show i.val + a.val = 0 + (i.val + a.val); omega
    | ⟨2, _⟩ => by show j.val + b.val = 0 + (j.val + b.val); omega)

end Cert.KernelIdeal.PoolTable

end
-- ==== Proof.PoolValue.lean ====
/-
  The result array after the run is the sliding maximum of the argument array.

  Point `t` stages channels 256 t ‥ 256 t + 255 (rows 0 ‥ 47, columns 0 ‥ 127 of each) and writes the table it computes
  back as channels 256 t ‥ 256 t + 255 of the result. Entry (p, u, v) of the staged block is the argument's entry
  (256 t + p, u, v) (`tile_apply`), and the sliding maximum reads rows and columns 0 ‥ 42 only, so what point `t`
  writes back is block `t` of the sliding maximum of the whole argument (`flushed_eq`). The eight blocks cover the
  result (`cover`: channel C is in block C / 256), hence the result ends holding that sliding maximum (`final`),
  and the frame run re-posted says so (`run_value`).
-/
import proofs.«116581_j7215545057804_1_alg».proof.Proof.PoolTable
import Idealize.ShloMosaic.Lib.Pipeline.Value
import Idealize.ShloMosaic.Lib.ValueIdx

set_option maxRecDepth 16384

noncomputable section

namespace Cert.KernelIdeal.PoolValue

open Cert.KernelIdeal Cert.KernelIdeal.Gen Cert.KernelIdeal.Pool Cert.KernelIdeal.PoolTable
open Idealize.ShloMosaic Idealize.ShloMosaic.TcCoe Idealize.ShloMosaic.ValueIdx Idealize.ShloMosaic.WindowMax
open Idealize.SL.Sem
open Idealize.ShloMosaic.Pipeline (Dat)

variable (m : (ℓ : Loc nD τ sig) → Buf (Elt Ideal) ℓ) (ρ : Dev nD → PrngReg)

/-- The sliding maximum of a whole argument array: 37 × 37 windows, seven by seven of them per channel. -/
abbrev poolOf (X : S2048x256x256.Idx → EReal) : S2048x7x7.Idx → EReal :=
  slideMax 37 7 7 (by omega) (by omega) X

/-- The argument array as the region finds it, at its literal type. -/
abbrev xarr (c : Dev nD) : S2048x256x256.Idx → EReal := V m c main_arg0

theorem lt8 (t : Fin cfg0.N) : t.val < 8 := by
  have h := t.isLt
  have e : cfg0.N = 8 := N_0
  omega

/-- The printed index maps over the grid: both windows' block index at point `t` is (t, 0, 0). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Entry (p, u, v) of the block staged at point `t` is the argument's entry (256 t + p, u, v). -/
theorem tile_apply (c : Dev nD) (t : Fin cfg0.N) (p : Fin 256) (u : Fin 48) (v : Fin 128) :
    tile m c t (ix3 p u v)
      = xarr m c (ix3 (⟨256 * t.val + p.val, by have := lt8 t; have := p.isLt; omega⟩ : Fin 2048)
          (⟨u.val, by have := u.isLt; omega⟩ : Fin 256) (⟨v.val, by have := v.isLt; omega⟩ : Fin 256)) := by
  have hc : ∀ a, win0_0.clip (grid0.coords t) a = none := clip_none t
  have hm : win0_0.moved (grid0.coords t) (ix3 p u v) = true := (win0_0.moved_iff _ _).mpr fun a => by
    have := ((ix3 p u v : S256x48x128.Idx) a).isLt
    unfold Pipeline.Window.xsize; rw [hc a]; exact this
  unfold tile Pipeline.Window.fill
  rw [dif_pos hm]
  obtain ⟨e0, e1, e2, -, -, -⟩ := idx_facts t
  show V m c main_arg0 (((cfg0.win 0).blk t).view.emb _) = _
  refine congrArg _ (funext fun a => Fin.ext ?_)
  match a with
  | ⟨0, _⟩ => show win0_0.index t (0 : Fin 3) * 256 + 1 * p.val = 256 * t.val + p.val; omega
  | ⟨1, _⟩ => show win0_0.index t (1 : Fin 3) * 48 + 1 * u.val = u.val; omega
  | ⟨2, _⟩ => show win0_0.index t (2 : Fin 3) * 128 + 1 * v.val = v.val; omega

/-- WHAT POINT `t` WRITES BACK is block `t` of the sliding maximum of the argument. -/
theorem flushed_eq (c : Dev nD) (t : Fin cfg0.N) :
    (dats m 0 c).flushed 1 t = ((cfg0.win 1).blk t).view.read (Elt Ideal) (poolOf (xarr m c)) := by
  show (cfg0.win 1).cut (grid0.coords t) ((dats m 0 c).after 1 t) = _
  rw [after_out, pooled_eq_slideMax]
  obtain ⟨-, -, -, e0, e1, e2⟩ := idx_facts t
  funext j
  have hj0 : (j 0).val < 256 := (j 0).isLt
  have hj1 : (j 1).val < 7 := (j 1).isLt
  have hj2 : (j 2).val < 7 := (j 2).isLt
  show slideMax 37 7 7 (by omega) (by omega) (tile m c t) (ix3 (⟨(j 0).val, hj0⟩ : Fin 256) (⟨(j 1).val, hj1⟩ : Fin 7) (⟨(j 2).val, hj2⟩ : Fin 7))
    = poolOf (xarr m c) (((cfg0.win 1).blk t).view.emb j)
  unfold poolOf slideMax
  refine congrArg (Finset.univ.sup) (funext fun a => congrArg (Finset.univ.sup) (funext fun b => ?_))
  refine (tile_apply m c t _ _ _).trans (congrArg (xarr m c) (funext fun d => Fin.ext ?_))
  match d with
  | ⟨0, _⟩ => show 256 * t.val + (j 0).val = win0_1.index t (0 : Fin 3) * 256 + 1 * (j 0).val; omega
  | ⟨1, _⟩ => show (j 1).val + a.val = win0_1.index t (1 : Fin 3) * 7 + 1 * (j 1).val + a.val; omega
  | ⟨2, _⟩ => show (j 2).val + b.val = win0_1.index t (2 : Fin 3) * 7 + 1 * (j 2).val + b.val; omega

/-- An index of the result is in point `t`'s block iff each coordinate is in the block's range on its axis. -/
theorem mem_blk (t : Fin cfg0.N) (i : S2048x7x7.Idx) :
    i ∈ ((cfg0.win 1).blk t).view.set ↔ ∀ a : Fin 3, win0_1.index t a * S256x7x7.size a ≤ (i a).val
      ∧ (i a).val < win0_1.index t a * S256x7x7.size a + S256x7x7.size a := by
  show i ∈ ((View.whole main_v0).slice (win0_1.rect t)).set ↔ _
  rw [View.set_slice_whole, Rect.mem_set_unit]
  exact Iff.rfl

/-- Channel C of the result is written back at point C / 256. -/
theorem cover (i : S2048x7x7.Idx) :
    ∃ t : Fin cfg0.N, (cfg0.win 1).flush t = true ∧ i ∈ ((cfg0.win 1).blk t).view.set := by
  have h0 : (i 0).val < 2048 := idx3_lt0 i
  have h1 : (i 1).val < 7 := idx3_lt1 i
  have h2 : (i 2).val < 7 := idx3_lt2 i
  have hN : cfg0.N = 8 := N_0
  let t : Fin cfg0.N := ⟨(i 0).val / 256, by omega⟩
  have ht : t.val = (i 0).val / 256 := rfl
  obtain ⟨-, -, -, e0, e1, e2⟩ := idx_facts t
  refine ⟨t, flush0_1 t, (mem_blk t i).mpr fun a => ?_⟩
  match a with
  | ⟨0, _⟩ =>
    show win0_1.index t (0 : Fin 3) * 256 ≤ (i 0).val ∧ (i 0).val < win0_1.index t (0 : Fin 3) * 256 + 256
    omega
  | ⟨1, _⟩ =>
    show win0_1.index t (1 : Fin 3) * 7 ≤ (i 1).val ∧ (i 1).val < win0_1.index t (1 : Fin 3) * 7 + 7
    omega
  | ⟨2, _⟩ =>
    show win0_1.index t (2 : Fin 3) * 7 ≤ (i 2).val ∧ (i 2).val < win0_1.index t (2 : Fin 3) * 7 + 7
    omega

/-- THE RESULT ARRAY after the run: the sliding maximum of the argument as the region found it. -/
theorem final (c : Dev nD) : (dats m 0 c).arrAt 1 cfg0.N = poolOf (xarr m c) :=
  (dats m 0 c).arrAt_eq_of_cover 1 (poolOf (xarr m c)) (fun t _ => flushed_eq m c t) cover

/-- The frame run re-posted: the result at the sliding maximum of the argument, the argument unchanged. -/
theorem run_value : θ_run defs (onTc (τ := τ) (main (F := Ideal))) ⟨m, fun _ => 0, ρ⟩ fun r => ∀ c : Dev nD,
      r.2.mem ((c.tc : Thread nD τ).loc main_v0) = poolOf (m ((c.tc : Thread nD τ).loc main_arg0))
      ∧ r.2.mem ((c.tc : Thread nD τ).loc main_arg0) = m ((c.tc : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.PoolValue

end
-- ==== Proof.RefValue.lean ====
/-
  The reference's result is the sliding maximum of the argument.

  The reference cuts the 43 × 43 corner out of every channel and reduces it with a 1 × 37 × 37 window, stride one, no
  padding, by `max` from -∞: result entry (c, i, j) is the left fold of `max` over the window's 1369 positions in
  row-major order. At the extended reals that fold is the supremum over the window (-∞ is the bottom element), every
  position of the window lies inside the corner (i + 36, j + 36 ≤ 42), and the corner's entry (c, r, s) is the
  argument's entry (c, r, s). So the result is the supremum over 0 ≤ a, b < 37 of the argument's entry
  (c, i + a, j + b).
-/
import proofs.«116581_j7215545057804_1_alg».proof.Proof.Gen.ReferenceIdeal.Run
import proofs.«116581_j7215545057804_1_alg».proof.Proof.Gen.ReferenceIdeal.Read
import proofs.«116581_j7215545057804_1_alg».proof.Proof.LibWindowMax
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Idealize.ShloMosaic.WindowMax

/-- The initial value of the windowed reduction is the bottom of the extended reals. -/
theorem init_bot : val_main_v1 (F := Ideal) (Shape.Idx.first h_S_) = (⊥ : EReal) := by
  rw [val_main_v1_apply, val_main_cst_apply]
  exact ofBits_neg_inf_f32

/-- Every position of a 1 × 37 × 37 window whose corner is (c, i, j), i, j ≤ 6, lies inside the [2048, 43, 43] array. -/
theorem window_inside (o : S2048x7x7.Idx) (w : (⟨S2048x43x43.rank, ![1, 37, 37]⟩ : Shape).Idx) (a : Fin S2048x43x43.rank) :
    (![0, 0, 0] : Fin 3 → Nat) a ≤ (o (a.cast reduceWindows_S2048x43x43_S2048x7x7_w1s1p0_0_w37s1p0_0_w37s1p0_0.1.symm)).val * (![1, 1, 1] : Fin 3 → Nat) a + (w a).val
      ∧ (o (a.cast reduceWindows_S2048x43x43_S2048x7x7_w1s1p0_0_w37s1p0_0_w37s1p0_0.1.symm)).val * (![1, 1, 1] : Fin 3 → Nat) a + (w a).val - (![0, 0, 0] : Fin 3 → Nat) a
        < S2048x43x43.size a := by
  have h7a : (o 1).val < 7 := idx3_lt1 o
  have h7b : (o 2).val < 7 := idx3_lt2 o
  have hN : (o 0).val < 2048 := idx3_lt0 o
  match a with
  | ⟨0, _⟩ =>
    have hw : (w 0).val < 1 := idx3_lt0 w
    show 0 ≤ (o 0).val * 1 + (w 0).val ∧ (o 0).val * 1 + (w 0).val - 0 < 2048
    omega
  | ⟨1, _⟩ =>
    have hw : (w 1).val < 37 := idx3_lt1 w
    show 0 ≤ (o 1).val * 1 + (w 1).val ∧ (o 1).val * 1 + (w 1).val - 0 < 43
    omega
  | ⟨2, _⟩ =>
    have hw : (w 2).val < 37 := idx3_lt2 w
    show 0 ≤ (o 2).val * 1 + (w 2).val ∧ (o 2).val * 1 + (w 2).val - 0 < 43
    omega

/-- The reference's result, as a function of the argument array, is its sliding maximum over 37 × 37 windows. -/
theorem result_eq (X : (⟨S2048x256x256, .f32⟩ : BufTy).Contents (Elt Ideal)) :
    val_main_v2 (F := Ideal) X = slideMax (α := EReal) (N := 2048) (H := 256) (W := 256) 37 7 7 (by omega) (by omega) X := by
  funext o
  unfold val_main_v2
  show Host.reduceWindow (max : EReal → EReal → EReal) ![1, 37, 37] ![1, 1, 1] ![0, 0, 0] ![0, 0, 0]
    (val_main_v0 (F := Ideal) X) (val_main_v1 (F := Ideal))
    reduceWindows_S2048x43x43_S2048x7x7_w1s1p0_0_w37s1p0_0_w37s1p0_0 h_S_ o = _
  rw [reduceWindow_max_apply (α := EReal) ![1, 37, 37] ![1, 1, 1] ![0, 0, 0] ![0, 0, 0]
    (val_main_v0 (F := Ideal) X) (val_main_v1 (F := Ideal))
    reduceWindows_S2048x43x43_S2048x7x7_w1s1p0_0_w37s1p0_0_w37s1p0_0 h_S_ init_bot o (window_inside o)]
  refine (sup_idx3_one (B := 37) (C := 37) _).trans ?_
  unfold slideMax
  refine congrArg (Finset.univ.sup) (funext fun a => congrArg (Finset.univ.sup) (funext fun b => ?_))
  rw [val_main_v0_apply]
  refine congrArg X (funext fun d => Fin.ext ?_)
  match d with
  | ⟨0, _⟩ => show (o 0).val * 1 + 0 - 0 = (o 0).val; omega
  | ⟨1, _⟩ => show (o 1).val * 1 + a.val - 0 = (o 1).val + a.val; omega
  | ⟨2, _⟩ => show (o 2).val * 1 + b.val - 0 = (o 2).val + b.val; omega

end Cert.ReferenceIdeal.RefValue

end
-- ==== Proof.lean ====
/-
  The pooling kernel against its jnp reference: out[c, i, j] = max over the 37 × 37 window of channel c with corner
  (i, j), for 0 ≤ i, j ≤ 6, of a [2048, 256, 256] array.

  The kernel stages, for 256 channels at a time, the tile-aligned 48 × 128 corner of each channel, takes its 43 × 43
  corner, reduces each of the forty-nine windows by a maximum over one axis and then over the other, and writes the
  seven-by-seven tables back. The reference cuts the 43 × 43 corners and reduces them with a 37 × 37 window, stride
  one, by `max` from -∞. At the extended reals both are the same supremum over the window: a maximum from -∞ is a
  supremum whatever the order and grouping of its operands, and both programs read exactly the argument's entries
  (c, i + a, j + b), 0 ≤ a, b < 37. No law used needs finiteness, so the precondition is never opened.

  * the three frames: the two kernel programs' from their runs (the body's triple, the proof data and the body
    obligation are in Proof/KernelPool.lean and Proof/KernelIdealPool.lean), the reference's from its run;
  * `preserves`: the ideal pass rewrote nothing;
  * `algebraic`: the kernel's result array ends at the sliding maximum of the argument (Proof/PoolTable.lean: the
    body's table is the sliding maximum of the block; Proof/PoolValue.lean: the blocks tile the result), and so does
    the reference's (Proof/RefValue.lean); the general facts about maxima over windows are Proof/LibWindowMax.lean.
-/
import proofs.«116581_j7215545057804_1_alg».proof.Defs
import proofs.«116581_j7215545057804_1_alg».proof.Proof.Gen.Kernel
import proofs.«116581_j7215545057804_1_alg».proof.Proof.Gen.KernelIdeal
import proofs.«116581_j7215545057804_1_alg».proof.Proof.Gen.ReferenceIdeal
import proofs.«116581_j7215545057804_1_alg».proof.Proof.Gen.Pre_finite_inputs
import proofs.«116581_j7215545057804_1_alg».proof.Proof.KernelPool
import proofs.«116581_j7215545057804_1_alg».proof.Proof.KernelIdealPool
import proofs.«116581_j7215545057804_1_alg».proof.Proof.PoolValue
import proofs.«116581_j7215545057804_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to its end, faults nowhere and leaves its argument unchanged. -/
theorem frame_kernel : Cert.frame_Kernel := fun m ρ _ => Cert.Kernel.Pool.frame m ρ

/-- So does its idealization. -/
theorem frame_kernelIdeal : Cert.frame_KernelIdeal := fun m ρ _ => Cert.KernelIdeal.Pool.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization is the kernel's own text read at the extended reals: no rewrite to account for. -/
theorem preserves : Cert.preserves_Kernel_KernelIdeal := trivial

/-- From memories that agree on the argument both idealized programs end with the result at the sliding maximum
    of the argument. -/
theorem algebraic : Cert.algebraic_KernelIdeal_ReferenceIdeal := by
  intro m ρ m' ρ' _ hagree
  refine ⟨fun c => Cert.KernelIdeal.PoolValue.poolOf (m ((c.tc : Thread Cert.KernelIdeal.nD Cert.KernelIdeal.τ).loc Cert.KernelIdeal.main_arg0)),
    Cert.KernelIdeal.PoolValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
